-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S1x64 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S2000x1 : Shape := ⟨2, ![2000, 1]⟩
abbrev S2000x64 : Shape := ⟨2, ![2000, 64]⟩
abbrev S128x64 : Shape := ⟨2, ![128, 64]⟩
abbrev S64x1 : Shape := ⟨2, ![64, 1]⟩
abbrev S1x1 : Shape := ⟨2, ![1, 1]⟩

abbrev nBuf : Space → Nat
  | .hbm => 34
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S64x128, .f32⟩
  | .local _ .vmem, ⟨11, _⟩ => ⟨S64, .f32⟩
  | .local _ .vmem, ⟨12, _⟩ => ⟨S64x128, .f32⟩
  | .local _ .vmem, ⟨13, _⟩ => ⟨S1x64, .f32⟩
  | .local _ .vmem, ⟨14, _⟩ => ⟨S1, .f32⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S100000x1.size a
  hwx1_9 : ∀ i : grid1.Coords, EltTy.bits .f32 = 32 ∨ (Rect.block (s := S100000x1) S2000x1.size (cc1_transform_9 i) (hinb1_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20_0) S2000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v20_1) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S64x1 : Shape := ⟨2, ![64, 1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S128x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S64x1, .f32⟩
  | .hbm, ⟨51, _⟩ => ⟨S100000x1, .f32⟩
  | .hbm, ⟨52, _⟩ => ⟨S1x1, .f32⟩
  | .hbm, ⟨53, _⟩ => ⟨S100000x1, .f32⟩
  | .hbm, ⟨54, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The layer both programs compute, index by index, over the extended reals.

  From an aggregate `agg` (100000 rows of 128 sums of neighbour features), a count column `cnt` (one count per
  row), the rectified features `h`, two 64 × 128 weight matrices, a bias of 64 entries and a head of 64 weights
  with one bias: row `i` of the aggregate is divided by `max (cnt i) 1`; entry `(i, j)` of the hidden layer is
  `max (∑ k, mean (i, k) · Wl (j, k) + bl j + ∑ k, h (i, k) · Wr (j, k)) 0`; entry `(i, 0)` of the head is
  `∑ j, hidden (i, j) · Wh (0, j) + bh 0`. The two float words that occur, `0` and `1`, stay as their bit patterns:
  the same word stands on both sides of every comparison made with these definitions and is never evaluated.
-/
import Idealize.ShloMosaic.PureOps.Ideal
import Idealize.ShloMosaic.Lib.ValueIdx

noncomputable section

namespace Cert.Sage

open Idealize.ShloMosaic Idealize.ShloMosaic.ValueIdx
open scoped BigOperators

/-- The float word of zero and of one, at the exact values. -/
abbrev zeroW : EReal := Ideal.ofBits .f32 0x00000000#32
abbrev oneW : EReal := Ideal.ofBits .f32 0x3F800000#32

/-- The rectified features: each entry against zero. -/
def rect (x : FVec Ideal ⟨2, ![100000, 128]⟩ .f32) : FVec Ideal ⟨2, ![100000, 128]⟩ .f32 :=
  fun i => max (x i) zeroW

/-- Entry `(i, k)` of the mean over in-neighbours: the aggregate over the count, the count raised to at least one. -/
def meanAt (agg : FVec Ideal ⟨2, ![100000, 128]⟩ .f32) (cnt : FVec Ideal ⟨2, ![100000, 1]⟩ .f32)
    (i : Fin 100000) (k : Fin 128) : EReal :=
  Ideal.div (agg (ix2 i k)) (max (cnt (ix2 i (0 : Fin 1))) oneW)

/-- Entry `(i, j)` of the hidden layer before and after it is rectified. -/
def hiddenAt (agg : FVec Ideal ⟨2, ![100000, 128]⟩ .f32) (cnt : FVec Ideal ⟨2, ![100000, 1]⟩ .f32)
    (h : FVec Ideal ⟨2, ![100000, 128]⟩ .f32) (Wl : FVec Ideal ⟨2, ![64, 128]⟩ .f32) (bl : FVec Ideal ⟨1, ![64]⟩ .f32)
    (Wr : FVec Ideal ⟨2, ![64, 128]⟩ .f32) (i : Fin 100000) (j : Fin 64) : EReal :=
  max ((∑ k : Fin 128, meanAt agg cnt i k * Wl (ix2 j k)) + bl (ix1 j) + ∑ k : Fin 128, h (ix2 i k) * Wr (ix2 j k)) zeroW

/-- The hidden layer as an array. -/
def hidden (agg : FVec Ideal ⟨2, ![100000, 128]⟩ .f32) (cnt : FVec Ideal ⟨2, ![100000, 1]⟩ .f32)
    (h : FVec Ideal ⟨2, ![100000, 128]⟩ .f32) (Wl : FVec Ideal ⟨2, ![64, 128]⟩ .f32) (bl : FVec Ideal ⟨1, ![64]⟩ .f32)
    (Wr : FVec Ideal ⟨2, ![64, 128]⟩ .f32) : FVec Ideal ⟨2, ![100000, 64]⟩ .f32 :=
  fun i => hiddenAt agg cnt h Wl bl Wr ⟨(i 0).val, idx2_lt0 i⟩ ⟨(i 1).val, idx2_lt1 i⟩

theorem hidden_apply (agg : FVec Ideal ⟨2, ![100000, 128]⟩ .f32) (cnt : FVec Ideal ⟨2, ![100000, 1]⟩ .f32)
    (h : FVec Ideal ⟨2, ![100000, 128]⟩ .f32) (Wl : FVec Ideal ⟨2, ![64, 128]⟩ .f32) (bl : FVec Ideal ⟨1, ![64]⟩ .f32)
    (Wr : FVec Ideal ⟨2, ![64, 128]⟩ .f32) (i : Fin 100000) (j : Fin 64) :
    hidden agg cnt h Wl bl Wr (ix2 i j) = hiddenAt agg cnt h Wl bl Wr i j := rfl

/-- Entry `(i, 0)` of the head: the hidden row against the head's one row of weights, plus its bias. -/
def headAt (hid : Fin 100000 → Fin 64 → EReal) (Wh : FVec Ideal ⟨2, ![1, 64]⟩ .f32) (bh : FVec Ideal ⟨1, ![1]⟩ .f32)
    (i : Fin 100000) : EReal :=
  (∑ j : Fin 64, hid i j * Wh (ix2 (0 : Fin 1) j)) + bh (ix1 (0 : Fin 1))

/-- The head as an array of one column. -/
def head (agg : FVec Ideal ⟨2, ![100000, 128]⟩ .f32) (cnt : FVec Ideal ⟨2, ![100000, 1]⟩ .f32)
    (h : FVec Ideal ⟨2, ![100000, 128]⟩ .f32) (Wl : FVec Ideal ⟨2, ![64, 128]⟩ .f32) (bl : FVec Ideal ⟨1, ![64]⟩ .f32)
    (Wr : FVec Ideal ⟨2, ![64, 128]⟩ .f32) (Wh : FVec Ideal ⟨2, ![1, 64]⟩ .f32) (bh : FVec Ideal ⟨1, ![1]⟩ .f32) :
    FVec Ideal ⟨2, ![100000, 1]⟩ .f32 :=
  fun i => headAt (hiddenAt agg cnt h Wl bl Wr) Wh bh ⟨(i 0).val, idx2_lt0 i⟩

theorem head_apply (agg : FVec Ideal ⟨2, ![100000, 128]⟩ .f32) (cnt : FVec Ideal ⟨2, ![100000, 1]⟩ .f32)
    (h : FVec Ideal ⟨2, ![100000, 128]⟩ .f32) (Wl : FVec Ideal ⟨2, ![64, 128]⟩ .f32) (bl : FVec Ideal ⟨1, ![64]⟩ .f32)
    (Wr : FVec Ideal ⟨2, ![64, 128]⟩ .f32) (Wh : FVec Ideal ⟨2, ![1, 64]⟩ .f32) (bh : FVec Ideal ⟨1, ![1]⟩ .f32)
    (i : Fin 100000) (u : Fin 1) :
    head agg cnt h Wl bl Wr Wh bh (ix2 i u) = headAt (hiddenAt agg cnt h Wl bl Wr) Wh bh i := rfl

end Cert.Sage

end
-- ==== Proof.ReluRegion.lean ====
/-
  The first region's output array after its fifty points.

  Point `t` loads rows `2000 t … 2000 t + 1999` of the input array, rectifies them entry by entry and writes them back
  to the same rows of the output array. The fifty blocks tile the array, so it ends holding the rectified input, whatever
  the contents the region is entered with.
-/
import proofs.«136310_j76149770158552_1_alg».proof.Proof.Gen.KernelIdeal.Frame
import proofs.«136310_j76149770158552_1_alg».proof.Proof.Spec
import Idealize.ShloMosaic.Lib.Pipeline.Value

set_option maxRecDepth 16384

noncomputable section

namespace Cert.KernelIdeal.Relu

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The input array the region is entered with, at its literal type. -/
abbrev inArr (c : Dev nD) : FVec Ideal S100000x128 .f32 := V c main_arg0

/-- The two windows move together, block `t` at point `t`, over all 128 columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the rectified input array. -/
theorem flushed_eq (c : Dev nD) (t : Fin cfg0.N) :
    (dat0 V c).flushed 1 t = ((cfg0.win 1).blk t).view.read (Elt Ideal) (rect (inArr V c)) := by
  show (cfg0.win 1).cut (grid0.coords t) ((dat0 V c).after 1 t) = _
  rw [after0_1]
  unfold out0_1
  rw [View.canon_unit_zero hz]
  simp only [View.ld_unit_zero (S := S2000x128) hz]
  obtain ⟨e0, e1, e2, e3⟩ := idx_facts t
  funext j
  show max (inArr V c (((cfg0.win 0).blk t).view.emb j)) zeroW = max (inArr V c (((cfg0.win 1).blk t).view.emb j)) zeroW
  have h0 : ((cfg0.win 0).blk t).view.emb j = ((cfg0.win 1).blk t).view.emb j := by
    funext a; apply Fin.ext
    match a with
    | ⟨0, _⟩ => show win0_0.index t (0 : Fin 2) * 2000 + 1 * (j 0).val = win0_1.index t (0 : Fin 2) * 2000 + 1 * (j 0).val; omega
    | ⟨1, _⟩ => show win0_0.index t (1 : Fin 2) * 128 + 1 * (j 1).val = win0_1.index t (1 : Fin 2) * 128 + 1 * (j 1).val; omega
  rw [h0]

/-- An index of the array is in point `t`'s block iff each coordinate is in the block's range on its axis. -/
theorem mem_blk (t : Fin cfg0.N) (i : S100000x128.Idx) :
    i ∈ ((cfg0.win 1).blk t).view.set ↔ ∀ a : Fin 2, win0_1.index t a * S2000x128.size a ≤ (i a).val ∧ (i a).val < win0_1.index t a * S2000x128.size a + S2000x128.size a := by
  show i ∈ ((View.whole main_v4).slice (win0_1.rect t)).set ↔ _
  rw [View.set_slice_whole, Rect.mem_set_unit]
  exact Iff.rfl

/-- Every index of the array is in the block of the point its row falls in. -/
theorem cover (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  refine ⟨⟨(i 0).val / 2000, by show (i 0).val / 2000 < 50; omega⟩, flush0_1 _, ?_⟩
  rw [mem_blk]
  obtain ⟨-, -, e2, e3⟩ := idx_facts ⟨(i 0).val / 2000, by show (i 0).val / 2000 < 50; omega⟩
  have e2' : win0_1.index ⟨(i 0).val / 2000, by show (i 0).val / 2000 < 50; omega⟩ (0 : Fin 2) = (i 0).val / 2000 := e2
  intro a
  match a with
  | ⟨0, _⟩ => show win0_1.index _ (0 : Fin 2) * 2000 ≤ (i 0).val ∧ (i 0).val < win0_1.index _ (0 : Fin 2) * 2000 + 2000; omega
  | ⟨1, _⟩ => show win0_1.index _ (1 : Fin 2) * 128 ≤ (i 1).val ∧ (i 1).val < win0_1.index _ (1 : Fin 2) * 128 + 128; omega

/-- THE OUTPUT ARRAY after the region: the rectified input array, for any entry contents. -/
theorem final (c : Dev nD) : (dat0 V c).arrAt 1 cfg0.N = rect (inArr V c) :=
  (dat0 V c).arrAt_eq_of_cover 1 (rect (inArr V c)) (fun t _ => flushed_eq V c t) cover

end Cert.KernelIdeal.Relu

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.DensePay.lean ====
/-
  The dense body's two stored values read at an index, at the exact values.

  The body divides its block of the aggregate, row by row, by the larger of the row's count and one, multiplies the
  quotient by the transposed first weight matrix, adds the bias along the rows, adds the product of its block of the
  rectified features with the transposed second weight matrix, and rectifies: entry `(p, q)` of what it stores in the
  hidden block. The head's block is that value times the head's transposed row of weights, plus the head's bias.
  Narrowing to half precision on the way into a product is the identity at the exact values, a product into a zero
  accumulator is the plain sum over the contracted coordinate, and a transposed matrix reads its operand with the
  coordinates swapped.
-/
import proofs.«136310_j76149770158552_1_alg».proof.Proof.Gen.KernelIdeal.Skeleton
import proofs.«136310_j76149770158552_1_alg».proof.Proof.LibDotFormats
import proofs.«136310_j76149770158552_1_alg».proof.Proof.LibColumn
import proofs.«136310_j76149770158552_1_alg».proof.Proof.Spec
import Idealize.ShloMosaic.Lib.ValueLayout
import Idealize.ShloMosaic.Lib.Pipeline.Value

noncomputable section

namespace Cert.KernelIdeal.DensePay

open Cert.KernelIdeal Cert.KernelIdeal.Gen Cert.Sage
open Idealize.ShloMosaic Idealize.ShloMosaic.ValueIdx
open scoped BigOperators

/-- The quotient the first product reads, at `(p, k)`. -/
theorem mean_apply (v0 : FVec Ideal S2000x128 .f32) (v2 : FVec Ideal S2000x1 .f32) (p : Fin 2000) (k : Fin 128) :
    (truncf .bf16 (divf (shapeCast S2000x128 v0 shapeCasts_S2000x128_S2000x128)
        (broadcastTo S2000x128 (maximumf (shapeCast S2000x1 v2 shapeCasts_S2000x1_S2000x1)
          (broadcast S2000x1 (Scalar.ofBits .f32 0x3F800000#32))) broadcasts_S2000x1_S2000x128)) bitsLt_bf16_f32
      : FVec Ideal S2000x128 .bf16) (ix2 p k)
      = Ideal.div (v0 (ix2 p k)) (max (v2 (ix2 p (0 : Fin 1))) oneW) := by
  show Ideal.div (shapeCast S2000x128 v0 shapeCasts_S2000x128_S2000x128 (ix2 p k))
      (broadcastTo S2000x128 (maximumf (shapeCast S2000x1 v2 shapeCasts_S2000x1_S2000x1)
          (broadcast S2000x1 (Scalar.ofBits .f32 0x3F800000#32))) broadcasts_S2000x1_S2000x128 (ix2 p k)) = _
  rw [shapeCast_self, Cert.LibColumn.broadcastTo_a1_ab_apply]
  show Ideal.div (v0 (ix2 p k)) (max (shapeCast S2000x1 v2 shapeCasts_S2000x1_S2000x1 (ix2 p (0 : Fin 1))) oneW) = _
  rw [shapeCast_self]

/-- A weight matrix narrowed and transposed reads, at `(k, q)`, the matrix at `(q, k)`. -/
theorem weightT_apply (w : FVec Ideal S64x128 .f32) (k : Fin 128) (q : Fin 64) :
    (transpose S128x64 [1, 0] (truncf .bf16 w bitsLt_bf16_f32 : FVec Ideal S64x128 .bf16) transposes_S64x128_p1_0_S128x64
      : FVec Ideal S128x64 .bf16) (ix2 k q) = w (ix2 q k) := by
  rw [transpose_ix2_apply]
  rfl

/-- The bias laid along the rows reads, at `(p, q)`, the bias at `q`. -/
theorem bias_apply (b : FVec Ideal S64 .f32) (p : Fin 2000) (q : Fin 64) :
    broadcastTo S2000x64 (shapeCast S1x64 b shapeCasts_S64_S1x64) broadcasts_S1x64_S2000x64 (ix2 p q) = b (ix1 q) := by
  rw [broadcastTo_1b_ab_apply, shapeCast_a_1a_apply]

/-- ENTRY `(p, q)` OF THE HIDDEN BLOCK the body stores, from the blocks it loads. -/
theorem pay1_apply (v0 : FVec Ideal S2000x128 .f32) (v2 : FVec Ideal S2000x1 .f32) (v9 : FVec Ideal S2000x128 .f32)
    (v12 : FVec Ideal S64x128 .f32) (v14 : FVec Ideal S64x128 .f32) (v18 : FVec Ideal S64 .f32) (p : Fin 2000) (q : Fin 64) :
    k1_pay1 (F := Ideal) v0 v2 v9 v12 v14 v18 (ix2 p q)
      = max ((∑ k : Fin 128, Ideal.div (v0 (ix2 p k)) (max (v2 (ix2 p (0 : Fin 1))) oneW) * v12 (ix2 q k))
          + v18 (ix1 q) + ∑ k : Fin 128, v9 (ix2 p k) * v14 (ix2 q k)) zeroW := by
  unfold k1_pay1
  dsimp only
  refine congrArg₂ max ?_ rfl
  refine congrArg₂ (· + ·) (congrArg₂ (· + ·) ?_ (bias_apply v18 p q)) ?_
  · refine (Cert.LibDotFormats.matmul_cols_zero_apply dot_S2000x128_S128x64_S2000x64_1_0_0_1_n_n rfl rfl rfl rfl rfl rfl none _ _ p q).trans ?_
    refine Finset.sum_congr rfl fun k _ => ?_
    exact congrArg₂ (· * ·) (mean_apply v0 v2 p k) (weightT_apply v12 k q)
  · refine (Cert.LibDotFormats.matmul_cols_zero_apply dot_S2000x128_S128x64_S2000x64_1_0_0_1_n_n rfl rfl rfl rfl rfl rfl none _ _ p q).trans ?_
    refine Finset.sum_congr rfl fun k _ => ?_
    refine congrArg₂ (· * ·) ?_ (weightT_apply v14 k q)
    show shapeCast S2000x128 v9 shapeCasts_S2000x128_S2000x128 (ix2 p k) = _
    rw [shapeCast_self]

/-- The head's row of weights narrowed and transposed reads, at `(j, u)`, the row at `(0, j)`. -/
theorem headT_apply (w : FVec Ideal S1x64 .f32) (j : Fin 64) (u : Fin 1) :
    (transpose S64x1 [1, 0] (truncf .bf16 w bitsLt_bf16_f32 : FVec Ideal S1x64 .bf16) transposes_S1x64_p1_0_S64x1
      : FVec Ideal S64x1 .bf16) (ix2 j u) = w (ix2 (0 : Fin 1) j) := by
  rw [transpose_ix2_apply]
  have hu : u = 0 := Subsingleton.elim _ _
  subst hu
  rfl

/-- The head's bias laid along the rows reads its one entry. -/
theorem headBias_apply (b : FVec Ideal S1 .f32) (p : Fin 2000) (u : Fin 1) :
    broadcastTo S2000x1 (shapeCast S1x1 b shapeCasts_S1_S1x1) broadcasts_S1x1_S2000x1 (ix2 p u) = b (ix1 (0 : Fin 1)) := by
  rw [broadcastTo_1b_ab_apply, shapeCast_a_1a_apply]
  have hu : u = 0 := Subsingleton.elim _ _
  subst hu
  rfl

/-- ENTRY `(p, 0)` OF THE HEAD'S BLOCK the body stores: the hidden row against the head's weights, plus its bias. -/
theorem pay2_apply (v0 : FVec Ideal S2000x128 .f32) (v2 : FVec Ideal S2000x1 .f32) (v9 : FVec Ideal S2000x128 .f32)
    (v12 : FVec Ideal S64x128 .f32) (v14 : FVec Ideal S64x128 .f32) (v18 : FVec Ideal S64 .f32)
    (v29 : FVec Ideal S1x64 .f32) (v33 : FVec Ideal S1 .f32) (p : Fin 2000) (u : Fin 1) :
    k1_pay2 (F := Ideal) v0 v2 v9 v12 v14 v18 v29 v33 (ix2 p u)
      = (∑ j : Fin 64, k1_pay1 (F := Ideal) v0 v2 v9 v12 v14 v18 (ix2 p j) * v29 (ix2 (0 : Fin 1) j)) + v33 (ix1 (0 : Fin 1)) := by
  unfold k1_pay2
  dsimp only
  refine congrArg₂ (· + ·) ?_ (headBias_apply v33 p u)
  refine (Cert.LibDotFormats.matmul_cols_zero_apply dot_S2000x64_S64x1_S2000x1_1_0_0_1_n_n rfl rfl rfl rfl rfl rfl none _ _ p u).trans ?_
  refine Finset.sum_congr rfl fun j _ => ?_
  exact congrArg₂ (· * ·) rfl (headT_apply v29 j u)

end Cert.KernelIdeal.DensePay

end
-- ==== Proof.DenseRegion.lean ====
/-
  The second region's two output arrays after its fifty points.

  Point `t` loads rows `2000 t … 2000 t + 1999` of the aggregate, of the count column and of the rectified features,
  and the whole of the two weight matrices, the bias, the head's weights and the head's bias; it stores rows
  `2000 t … 2000 t + 1999` of the hidden layer and of the head. Entry `(p, q)` of the stored hidden block is entry
  `(2000 t + p, q)` of the hidden layer of the whole arrays, because each sum it holds runs over a row of a loaded
  block, which is a row of the array. The fifty blocks tile each output array.
-/
import proofs.«136310_j76149770158552_1_alg».proof.Proof.Gen.KernelIdeal.Frame
import proofs.«136310_j76149770158552_1_alg».proof.Proof.DensePay
import proofs.«136310_j76149770158552_1_alg».proof.Proof.Spec
import Idealize.ShloMosaic.Lib.Pipeline.Value

set_option maxRecDepth 16384

noncomputable section

namespace Cert.KernelIdeal.Dense

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)
open scoped BigOperators

/-! ## A block of rows against the whole arrays, over variables -/

/-- If the loaded blocks are rows `row p` of the arrays and the loaded parameters are the parameter arrays, entry
    `(p, q)` of the stored hidden block is entry `(row p, q)` of the hidden layer. -/
theorem hidden_block (A : FVec Ideal S100000x128 .f32) (C : FVec Ideal S100000x1 .f32) (H : FVec Ideal S100000x128 .f32)
    (Wl : FVec Ideal S64x128 .f32) (bl : FVec Ideal S64 .f32) (Wr : FVec Ideal S64x128 .f32)
    (x0 : FVec Ideal S2000x128 .f32) (x1 : FVec Ideal S2000x1 .f32) (x2 : FVec Ideal S2000x128 .f32)
    (x3 : FVec Ideal S64x128 .f32) (x4 : FVec Ideal S64 .f32) (x5 : FVec Ideal S64x128 .f32)
    (row : Fin 2000 → Fin 100000)
    (h0 : ∀ (p : Fin 2000) (k : Fin 128), x0 (ix2 p k) = A (ix2 (row p) k))
    (h1 : ∀ p : Fin 2000, x1 (ix2 p (0 : Fin 1)) = C (ix2 (row p) (0 : Fin 1)))
    (h2 : ∀ (p : Fin 2000) (k : Fin 128), x2 (ix2 p k) = H (ix2 (row p) k))
    (h3 : ∀ (q : Fin 64) (k : Fin 128), x3 (ix2 q k) = Wl (ix2 q k))
    (h4 : ∀ q : Fin 64, x4 (ix1 q) = bl (ix1 q))
    (h5 : ∀ (q : Fin 64) (k : Fin 128), x5 (ix2 q k) = Wr (ix2 q k))
    (p : Fin 2000) (q : Fin 64) :
    k1_pay1 (F := Ideal) x0 x1 x2 x3 x5 x4 (ix2 p q) = hiddenAt A C H Wl bl Wr (row p) q := by
  rw [DensePay.pay1_apply]
  unfold hiddenAt meanAt
  refine congrArg₂ max ?_ rfl
  refine congrArg₂ (· + ·) (congrArg₂ (· + ·) ?_ (h4 q)) ?_
  · refine Finset.sum_congr rfl fun k _ => ?_
    rw [h0, h1, h3]
  · refine Finset.sum_congr rfl fun k _ => ?_
    rw [h2, h5]

/-- The same for the head's block. -/
theorem head_block (A : FVec Ideal S100000x128 .f32) (C : FVec Ideal S100000x1 .f32) (H : FVec Ideal S100000x128 .f32)
    (Wl : FVec Ideal S64x128 .f32) (bl : FVec Ideal S64 .f32) (Wr : FVec Ideal S64x128 .f32)
    (Wh : FVec Ideal S1x64 .f32) (bh : FVec Ideal S1 .f32)
    (x0 : FVec Ideal S2000x128 .f32) (x1 : FVec Ideal S2000x1 .f32) (x2 : FVec Ideal S2000x128 .f32)
    (x3 : FVec Ideal S64x128 .f32) (x4 : FVec Ideal S64 .f32) (x5 : FVec Ideal S64x128 .f32)
    (x6 : FVec Ideal S1x64 .f32) (x7 : FVec Ideal S1 .f32)
    (row : Fin 2000 → Fin 100000)
    (h0 : ∀ (p : Fin 2000) (k : Fin 128), x0 (ix2 p k) = A (ix2 (row p) k))
    (h1 : ∀ p : Fin 2000, x1 (ix2 p (0 : Fin 1)) = C (ix2 (row p) (0 : Fin 1)))
    (h2 : ∀ (p : Fin 2000) (k : Fin 128), x2 (ix2 p k) = H (ix2 (row p) k))
    (h3 : ∀ (q : Fin 64) (k : Fin 128), x3 (ix2 q k) = Wl (ix2 q k))
    (h4 : ∀ q : Fin 64, x4 (ix1 q) = bl (ix1 q))
    (h5 : ∀ (q : Fin 64) (k : Fin 128), x5 (ix2 q k) = Wr (ix2 q k))
    (h6 : ∀ j : Fin 64, x6 (ix2 (0 : Fin 1) j) = Wh (ix2 (0 : Fin 1) j))
    (h7 : x7 (ix1 (0 : Fin 1)) = bh (ix1 (0 : Fin 1)))
    (p : Fin 2000) (u : Fin 1) :
    k1_pay2 (F := Ideal) x0 x1 x2 x3 x5 x4 x6 x7 (ix2 p u) = headAt (hiddenAt A C H Wl bl Wr) Wh bh (row p) := by
  rw [DensePay.pay2_apply]
  unfold headAt
  refine congrArg₂ (· + ·) ?_ h7
  refine Finset.sum_congr rfl fun j _ => ?_
  rw [hidden_block A C H Wl bl Wr x0 x1 x2 x3 x4 x5 row h0 h1 h2 h3 h4 h5 p j, h6]

/-! ## The region, at any entry contents -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row windows and the two output windows sit on block `t` at point
    `t`, over all their columns; the five parameter windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The blocks point `t` loads, at their literal types. -/
abbrev aggBlk (c : Dev nD) (t : Fin cfg1.N) : FVec Ideal S2000x128 .f32 := iblk1 V c 0 t
abbrev cntBlk (c : Dev nD) (t : Fin cfg1.N) : FVec Ideal S2000x1 .f32 := iblk1 V c 1 t
abbrev featBlk (c : Dev nD) (t : Fin cfg1.N) : FVec Ideal S2000x128 .f32 := iblk1 V c 2 t
abbrev wlBlk (c : Dev nD) (t : Fin cfg1.N) : FVec Ideal S64x128 .f32 := iblk1 V c 3 t
abbrev blBlk (c : Dev nD) (t : Fin cfg1.N) : FVec Ideal S64 .f32 := iblk1 V c 4 t
abbrev wrBlk (c : Dev nD) (t : Fin cfg1.N) : FVec Ideal S64x128 .f32 := iblk1 V c 5 t
abbrev whBlk (c : Dev nD) (t : Fin cfg1.N) : FVec Ideal S1x64 .f32 := iblk1 V c 6 t
abbrev bhBlk (c : Dev nD) (t : Fin cfg1.N) : FVec Ideal S1 .f32 := iblk1 V c 7 t

/-- The arrays the region is entered with, at their literal types. -/
abbrev aggArr (c : Dev nD) : FVec Ideal S100000x128 .f32 := V c main_v14
abbrev cntArr (c : Dev nD) : FVec Ideal S100000x1 .f32 := V c main_v19
abbrev featArr (c : Dev nD) : FVec Ideal S100000x128 .f32 := V c main_v4
abbrev wlArr (c : Dev nD) : FVec Ideal S64x128 .f32 := V c main_arg2
abbrev blArr (c : Dev nD) : FVec Ideal S64 .f32 := V c main_arg3
abbrev wrArr (c : Dev nD) : FVec Ideal S64x128 .f32 := V c main_arg4
abbrev whArr (c : Dev nD) : FVec Ideal S1x64 .f32 := V c main_arg5
abbrev bhArr (c : Dev nD) : FVec Ideal S1 .f32 := V c main_arg6

/-- Row `p` of point `t`'s blocks is row `2000 t + p` of the arrays. -/
def rowOf (t : Fin cfg1.N) (p : Fin 2000) : Fin 100000 :=
  ⟨t.val * 2000 + p.val, by have := t.isLt; have hN : cfg1.N = 50 := N_1; have := p.isLt; omega⟩

theorem aggBlk_apply (c : Dev nD) (t : Fin cfg1.N) (p : Fin 2000) (k : Fin 128) :
    aggBlk V c t (ix2 p k) = aggArr V c (ix2 (rowOf t p) k) := by
  obtain ⟨e0, e1, -⟩ := idx_facts t
  show V c main_v14 (((cfg1.win 0).blk t).view.emb (ix2 p k)) = V c main_v14 (ix2 (rowOf t p) k)
  refine congrArg (V c main_v14) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem cntBlk_apply (c : Dev nD) (t : Fin cfg1.N) (p : Fin 2000) :
    cntBlk V c t (ix2 p (0 : Fin 1)) = cntArr V c (ix2 (rowOf t p) (0 : Fin 1)) := by
  obtain ⟨-, -, e0, e1, -⟩ := idx_facts t
  show V c main_v19 (((cfg1.win 1).blk t).view.emb (ix2 p (0 : Fin 1))) = V c main_v19 (ix2 (rowOf t p) (0 : Fin 1))
  refine congrArg (V c main_v19) (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

theorem featBlk_apply (c : Dev nD) (t : Fin cfg1.N) (p : Fin 2000) (k : Fin 128) :
    featBlk V c t (ix2 p k) = featArr V c (ix2 (rowOf t p) k) := by
  obtain ⟨-, -, -, -, e0, e1, -⟩ := idx_facts t
  show V c main_v4 (((cfg1.win 2).blk t).view.emb (ix2 p k)) = V c main_v4 (ix2 (rowOf t p) k)
  refine congrArg (V c main_v4) (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega

theorem wlBlk_apply (c : Dev nD) (t : Fin cfg1.N) (q : Fin 64) (k : Fin 128) :
    wlBlk V c t (ix2 q k) = wlArr V c (ix2 q k) := by
  obtain ⟨-, -, -, -, -, -, e0, e1, -⟩ := idx_facts t
  show V c main_arg2 (((cfg1.win 3).blk t).view.emb (ix2 q k)) = V c main_arg2 (ix2 q k)
  refine congrArg (V c main_arg2) (funext fun a => Fin.ext ?_)
  match a with
  | ⟨0, _⟩ => show win1_3.index t (0 : Fin 2) * 64 + 1 * q.val = q.val; omega
  | ⟨1, _⟩ => show win1_3.index t (1 : Fin 2) * 128 + 1 * k.val = k.val; omega

theorem blBlk_apply (c : Dev nD) (t : Fin cfg1.N) (q : Fin 64) :
    blBlk V c t (ix1 q) = blArr V c (ix1 q) := by
  obtain ⟨-, -, -, -, -, -, -, -, e0, -⟩ := idx_facts t
  show V c main_arg3 (((cfg1.win 4).blk t).view.emb (ix1 q)) = V c main_arg3 (ix1 q)
  refine congrArg (V c main_arg3) (funext fun a => Fin.ext ?_)
  match a with
  | ⟨0, _⟩ => show win1_4.index t (0 : Fin 1) * 64 + 1 * q.val = q.val; omega

theorem wrBlk_apply (c : Dev nD) (t : Fin cfg1.N) (q : Fin 64) (k : Fin 128) :
    wrBlk V c t (ix2 q k) = wrArr V c (ix2 q k) := by
  obtain ⟨-, -, -, -, -, -, -, -, -, e0, e1, -⟩ := idx_facts t
  show V c main_arg4 (((cfg1.win 5).blk t).view.emb (ix2 q k)) = V c main_arg4 (ix2 q k)
  refine congrArg (V c main_arg4) (funext fun a => Fin.ext ?_)
  match a with
  | ⟨0, _⟩ => show win1_5.index t (0 : Fin 2) * 64 + 1 * q.val = q.val; omega
  | ⟨1, _⟩ => show win1_5.index t (1 : Fin 2) * 128 + 1 * k.val = k.val; omega

theorem whBlk_apply (c : Dev nD) (t : Fin cfg1.N) (j : Fin 64) :
    whBlk V c t (ix2 (0 : Fin 1) j) = whArr V c (ix2 (0 : Fin 1) j) := by
  obtain ⟨-, -, -, -, -, -, -, -, -, -, -, e0, e1, -⟩ := idx_facts t
  show V c main_arg5 (((cfg1.win 6).blk t).view.emb (ix2 (0 : Fin 1) j)) = V c main_arg5 (ix2 (0 : Fin 1) j)
  refine congrArg (V c main_arg5) (funext fun a => Fin.ext ?_)
  match a with
  | ⟨0, _⟩ => show win1_6.index t (0 : Fin 2) * 1 + 1 * 0 = 0; omega
  | ⟨1, _⟩ => show win1_6.index t (1 : Fin 2) * 64 + 1 * j.val = j.val; omega

theorem bhBlk_apply (c : Dev nD) (t : Fin cfg1.N) :
    bhBlk V c t (ix1 (0 : Fin 1)) = bhArr V c (ix1 (0 : Fin 1)) := by
  obtain ⟨-, -, -, -, -, -, -, -, -, -, -, -, -, e0, -⟩ := idx_facts t
  show V c main_arg6 (((cfg1.win 7).blk t).view.emb (ix1 (0 : Fin 1))) = V c main_arg6 (ix1 (0 : Fin 1))
  refine congrArg (V c main_arg6) (funext fun a => Fin.ext ?_)
  match a with
  | ⟨0, _⟩ => show win1_7.index t (0 : Fin 1) * 1 + 1 * 0 = 0; omega

/-- The hidden layer and the head of the arrays the region is entered with. -/
abbrev hiddenArr (c : Dev nD) : FVec Ideal S100000x64 .f32 :=
  hidden (aggArr V c) (cntArr V c) (featArr V c) (wlArr V c) (blArr V c) (wrArr V c)
abbrev headArr (c : Dev nD) : FVec Ideal S100000x1 .f32 :=
  head (aggArr V c) (cntArr V c) (featArr V c) (wlArr V c) (blArr V c) (wrArr V c) (whArr V c) (bhArr V c)

/-- What point `t` writes back to the hidden array is block `t` of the hidden layer. -/
theorem flushed8_eq (c : Dev nD) (t : Fin cfg1.N) :
    (dat1 V c).flushed 8 t = ((cfg1.win 8).blk t).view.read (Elt Ideal) (hiddenArr V c) := by
  show (cfg1.win 8).cut (grid1.coords t) ((dat1 V c).after 8 t) = _
  rw [after1_8]
  unfold out1_8
  rw [View.canon_unit_zero hz2]
  simp only [View.ld_unit_zero (S := S2000x128) hz2, View.ld_unit_zero (S := S2000x1) hz2, View.ld_unit_zero (S := S64x128) hz2, View.ld_unit_zero (S := S64) hz1]
  obtain ⟨-, -, -, -, -, -, -, -, -, -, -, -, -, -, e0, e1, -⟩ := idx_facts t
  funext j
  obtain ⟨p, q, rfl⟩ : ∃ (p : Fin 2000) (q : Fin 64), j = ix2 p q := ⟨j 0, j 1, eq_ix2 j⟩
  show k1_pay1 (F := Ideal) (aggBlk V c t) (cntBlk V c t) (featBlk V c t) (wlBlk V c t) (wrBlk V c t) (blBlk V c t) (ix2 p q)
    = hiddenArr V c (((cfg1.win 8).blk t).view.emb (ix2 p q))
  refine (hidden_block (aggArr V c) (cntArr V c) (featArr V c) (wlArr V c) (blArr V c) (wrArr V c)
    (aggBlk V c t) (cntBlk V c t) (featBlk V c t) (wlBlk V c t) (blBlk V c t) (wrBlk V c t) (rowOf t)
    (aggBlk_apply V c t) (cntBlk_apply V c t) (featBlk_apply V c t) (wlBlk_apply V c t) (blBlk_apply V c t) (wrBlk_apply V c t) p q).trans ?_
  show hiddenAt (aggArr V c) (cntArr V c) (featArr V c) (wlArr V c) (blArr V c) (wrArr V c) (rowOf t p) q
    = hiddenAt (aggArr V c) (cntArr V c) (featArr V c) (wlArr V c) (blArr V c) (wrArr V c) ⟨_, _⟩ ⟨_, _⟩
  refine congrArg₂ (hiddenAt (aggArr V c) (cntArr V c) (featArr V c) (wlArr V c) (blArr V c) (wrArr V c)) (Fin.ext ?_) (Fin.ext ?_)
  · show t.val * 2000 + p.val = win1_8.index t (0 : Fin 2) * 2000 + 1 * p.val; omega
  · show q.val = win1_8.index t (1 : Fin 2) * 64 + 1 * q.val; omega

/-- What point `t` writes back to the head's array is block `t` of the head. -/
theorem flushed9_eq (c : Dev nD) (t : Fin cfg1.N) :
    (dat1 V c).flushed 9 t = ((cfg1.win 9).blk t).view.read (Elt Ideal) (headArr V c) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S2000x1) hz2, View.ld_unit_zero (S := S64x128) hz2, View.ld_unit_zero (S := S64) hz1, View.ld_unit_zero (S := S1x64) hz2, View.ld_unit_zero (S := S1) hz1]
  obtain ⟨-, -, -, -, -, -, -, -, -, -, -, -, -, -, -, -, e0, e1⟩ := idx_facts t
  funext j
  obtain ⟨p, u, rfl⟩ : ∃ (p : Fin 2000) (u : Fin 1), j = ix2 p u := ⟨j 0, j 1, eq_ix2 j⟩
  show k1_pay2 (F := Ideal) (aggBlk V c t) (cntBlk V c t) (featBlk V c t) (wlBlk V c t) (wrBlk V c t) (blBlk V c t) (whBlk V c t) (bhBlk V c t) (ix2 p u)
    = headArr V c (((cfg1.win 9).blk t).view.emb (ix2 p u))
  refine (head_block (aggArr V c) (cntArr V c) (featArr V c) (wlArr V c) (blArr V c) (wrArr V c) (whArr V c) (bhArr V c)
    (aggBlk V c t) (cntBlk V c t) (featBlk V c t) (wlBlk V c t) (blBlk V c t) (wrBlk V c t) (whBlk V c t) (bhBlk V c t) (rowOf t)
    (aggBlk_apply V c t) (cntBlk_apply V c t) (featBlk_apply V c t) (wlBlk_apply V c t) (blBlk_apply V c t) (wrBlk_apply V c t)
    (whBlk_apply V c t) (bhBlk_apply V c t) p u).trans ?_
  show headAt (hiddenAt (aggArr V c) (cntArr V c) (featArr V c) (wlArr V c) (blArr V c) (wrArr V c)) (whArr V c) (bhArr V c) (rowOf t p)
    = headAt (hiddenAt (aggArr V c) (cntArr V c) (featArr V c) (wlArr V c) (blArr V c) (wrArr V c)) (whArr V c) (bhArr V c) ⟨_, _⟩
  refine congrArg (headAt (hiddenAt (aggArr V c) (cntArr V c) (featArr V c) (wlArr V c) (blArr V c) (wrArr V c)) (whArr V c) (bhArr V c)) (Fin.ext ?_)
  show t.val * 2000 + p.val = win1_9.index t (0 : Fin 2) * 2000 + 1 * p.val; omega

/-! ## The blocks tile the two output arrays -/

theorem mem_blk8 (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v20_0).slice (win1_8.rect t)).set ↔ _
  rw [View.set_slice_whole, Rect.mem_set_unit]
  exact Iff.rfl

theorem mem_blk9 (t : Fin cfg1.N) (i : S100000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v20_1).slice (win1_9.rect t)).set ↔ _
  rw [View.set_slice_whole, Rect.mem_set_unit]
  exact Iff.rfl

theorem cover8 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have ht : (i 0).val / 2000 < cfg1.N := by show (i 0).val / 2000 < 50; omega
  refine ⟨⟨(i 0).val / 2000, ht⟩, flush1_8 _, ?_⟩
  rw [mem_blk8]
  obtain ⟨-, -, -, -, -, -, -, -, -, -, -, -, -, -, e0, e1, -⟩ := idx_facts ⟨(i 0).val / 2000, ht⟩
  have e0' : win1_8.index ⟨(i 0).val / 2000, ht⟩ (0 : Fin 2) = (i 0).val / 2000 := e0
  intro a
  match a with
  | ⟨0, _⟩ => show win1_8.index _ (0 : Fin 2) * 2000 ≤ (i 0).val ∧ (i 0).val < win1_8.index _ (0 : Fin 2) * 2000 + 2000; omega
  | ⟨1, _⟩ => show win1_8.index _ (1 : Fin 2) * 64 ≤ (i 1).val ∧ (i 1).val < win1_8.index _ (1 : Fin 2) * 64 + 64; omega

theorem cover9 (i : S100000x1.Idx) : ∃ t : Fin cfg1.N, (cfg1.win 9).flush t = true ∧ i ∈ ((cfg1.win 9).blk t).view.set := by
  have hi0 : (i 0).val < 100000 := (i 0).isLt
  have hi1 : (i 1).val < 1 := (i 1).isLt
  have ht : (i 0).val / 2000 < cfg1.N := by show (i 0).val / 2000 < 50; omega
  refine ⟨⟨(i 0).val / 2000, ht⟩, flush1_9 _, ?_⟩
  rw [mem_blk9]
  obtain ⟨-, -, -, -, -, -, -, -, -, -, -, -, -, -, -, -, e0, e1⟩ := idx_facts ⟨(i 0).val / 2000, ht⟩
  have e0' : win1_9.index ⟨(i 0).val / 2000, ht⟩ (0 : Fin 2) = (i 0).val / 2000 := e0
  intro a
  match a with
  | ⟨0, _⟩ => show win1_9.index _ (0 : Fin 2) * 2000 ≤ (i 0).val ∧ (i 0).val < win1_9.index _ (0 : Fin 2) * 2000 + 2000; omega
  | ⟨1, _⟩ => show win1_9.index _ (1 : Fin 2) * 1 ≤ (i 1).val ∧ (i 1).val < win1_9.index _ (1 : Fin 2) * 1 + 1; omega

/-- THE TWO OUTPUT ARRAYS after the region: the hidden layer and the head of the arrays it is entered with. -/
theorem final8 (c : Dev nD) : (dat1 V c).arrAt 8 cfg1.N = hiddenArr V c :=
  (dat1 V c).arrAt_eq_of_cover 8 (hiddenArr V c) (fun t _ => flushed8_eq V c t) cover8

theorem final9 (c : Dev nD) : (dat1 V c).arrAt 9 cfg1.N = headArr V c :=
  (dat1 V c).arrAt_eq_of_cover 9 (headArr V c) (fun t _ => flushed9_eq V c t) cover9

end Cert.KernelIdeal.Dense

end
-- ==== Proof.KernelValue.lean ====
/-
  The kernel program's two results as the layer of the specification.

  Between the launch and the return the buffers pass four boundaries. The first host stretch cuts the two rows out of
  the edge array. The first region leaves the rectified input. The second host stretch gathers rows of the rectified
  input by the first edge row (a negative word wrapped once by the number of nodes) and adds them into the aggregate
  by the second edge row, and counts the second row's words the same way, as a column. The second region leaves the
  hidden layer and the head of those three arrays and the five parameter arrays, which no stretch and no region writes.
  The gather and the two scatter-adds are carried as named functions of what they read and are never opened.
-/
import proofs.«136310_j76149770158552_1_alg».proof.Proof.Gen.KernelIdeal.Frame
import proofs.«136310_j76149770158552_1_alg».proof.Proof.KernelRun
import proofs.«136310_j76149770158552_1_alg».proof.Proof.ReluRegion
import proofs.«136310_j76149770158552_1_alg».proof.Proof.DenseRegion
import proofs.«136310_j76149770158552_1_alg».proof.Proof.Spec
import Idealize.ShloMosaic.Lib.StableHlo.Run

set_option maxRecDepth 16384

noncomputable section

namespace Cert.KernelIdeal.Chain

open Cert.KernelIdeal Cert.KernelIdeal.Gen Cert.Sage
open Idealize.ShloMosaic Idealize.ShloMosaic.TcCoe Idealize.SL.Sem Idealize.ShloMosaic.StableHlo

/-! ## The host operations both programs share, as functions of what they read -/

/-- The first and the second row of the edge array, as vectors. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The aggregate: rows of `h` gathered by the source words, added into a zero array by the destination words. -/
def aggOf (h : (⟨S100000x128, .f32⟩ : BufTy).Contents (Elt Ideal)) (s d : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The count column: ones added into a zero vector by the destination words, given a trailing unit axis. -/
def cntOf (d : (⟨S1600000, .i32⟩ : BufTy).Contents (Elt Ideal)) : (⟨S100000x1, .f32⟩ : BufTy).Contents (Elt Ideal) :=
  broadcastInDim S100000x1 ![0] bcast_S100000_S100000x1_0
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))

theorem aggOf_congr {h h' : (⟨S100000x128, .f32⟩ : BufTy).Contents (Elt Ideal)} {s s' d d' : (⟨S1600000, .i32⟩ : BufTy).Contents (Elt Ideal)}
    (eh : h = h') (es : s = s') (ed : d = d') : aggOf h s d = aggOf h' s' d' := by subst eh es ed; rfl

theorem cntOf_congr {d d' : (⟨S1600000, .i32⟩ : BufTy).Contents (Elt Ideal)} (ed : d = d') : cntOf d = cntOf d' := by subst ed; rfl

variable (m : (ℓ : Loc nD τ sig) → Buf (Elt Ideal) ℓ) (ρ : Dev nD → PrngReg)

/-! ## The contents at the boundaries -/

/-- The first stretch leaves the input array as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results

/-- After the first region the feature array is the rectified input. -/
theorem W2_v4 (c : Dev nD) : W2 m ρ c (Proc.devRef .tc main_v4) = rect (m ((c : Thread nD τ).loc main_arg0)) :=
  (W2_arr m ρ c 1).trans ((Relu.final (V1 m ρ) c).trans (congrArg rect (W1_arg0 m ρ c)))

/-- The two edge rows are those of the launched edge array: the first region does not write them. -/
theorem W2_v1 (c : Dev nD) : W2 m ρ c (Proc.devRef .tc main_v1) = srcRow (m ((c : Thread nD τ).loc main_arg1)) := by
  refine (W2_of_ne m ρ c main_v1 (by decide)).trans ?_
  show StableHlo.after hostOps0 (W0 m ρ c) (Proc.devRef .tc main_v1) = _
  after_results
  rfl

theorem W2_v3 (c : Dev nD) : W2 m ρ c (Proc.devRef .tc main_v3) = dstRow (m ((c : Thread nD τ).loc main_arg1)) := by
  refine (W2_of_ne m ρ c main_v3 (by decide)).trans ?_
  show StableHlo.after hostOps0 (W0 m ρ c) (Proc.devRef .tc main_v3) = _
  after_results
  rfl

/-- The second region is entered with the aggregate, the count column and the rectified input of the launched arrays. -/
theorem W3_v14 (c : Dev nD) : W3 m ρ c (Proc.devRef .tc main_v14)
    = aggOf (rect (m ((c : Thread nD τ).loc main_arg0))) (srcRow (m ((c : Thread nD τ).loc main_arg1))) (dstRow (m ((c : Thread nD τ).loc main_arg1))) := by
  refine Eq.trans (b := aggOf (W2 m ρ c (Proc.devRef .tc main_v4)) (W2 m ρ c (Proc.devRef .tc main_v1)) (W2 m ρ c (Proc.devRef .tc main_v3))) ?_
    (aggOf_congr (W2_v4 m ρ c) (W2_v1 m ρ c) (W2_v3 m ρ c))
  show StableHlo.after hostOps1 (W2 m ρ c) (Proc.devRef .tc main_v14) = _
  after_results
  rfl

theorem W3_v19 (c : Dev nD) : W3 m ρ c (Proc.devRef .tc main_v19) = cntOf (dstRow (m ((c : Thread nD τ).loc main_arg1))) := by
  refine Eq.trans (b := cntOf (W2 m ρ c (Proc.devRef .tc main_v3))) ?_ (cntOf_congr (W2_v3 m ρ c))
  show StableHlo.after hostOps1 (W2 m ρ c) (Proc.devRef .tc main_v19) = _
  after_results
  rfl

theorem W3_v4 (c : Dev nD) : W3 m ρ c (Proc.devRef .tc main_v4) = rect (m ((c : Thread nD τ).loc main_arg0)) := by
  show StableHlo.after hostOps1 (W2 m ρ c) (Proc.devRef .tc main_v4) = _
  after_results
  exact W2_v4 m ρ c

/-- The parameter arrays reach the second region as launched: neither host stretch and no window of the first region
    writes them. -/
theorem W3_arg2 (c : Dev nD) : W3 m ρ c (Proc.devRef .tc main_arg2) = m ((c : Thread nD τ).loc main_arg2) := by
  have h1 : W3 m ρ c (Proc.devRef .tc main_arg2) = W2 m ρ c (Proc.devRef .tc main_arg2) := by
    show StableHlo.after hostOps1 (W2 m ρ c) (Proc.devRef .tc main_arg2) = _
    after_results
  refine h1.trans ((W2_of_ne m ρ c main_arg2 (by decide)).trans ?_)
  show StableHlo.after hostOps0 (W0 m ρ c) (Proc.devRef .tc main_arg2) = _
  after_results
theorem W3_arg3 (c : Dev nD) : W3 m ρ c (Proc.devRef .tc main_arg3) = m ((c : Thread nD τ).loc main_arg3) := by
  have h1 : W3 m ρ c (Proc.devRef .tc main_arg3) = W2 m ρ c (Proc.devRef .tc main_arg3) := by
    show StableHlo.after hostOps1 (W2 m ρ c) (Proc.devRef .tc main_arg3) = _
    after_results
  refine h1.trans ((W2_of_ne m ρ c main_arg3 (by decide)).trans ?_)
  show StableHlo.after hostOps0 (W0 m ρ c) (Proc.devRef .tc main_arg3) = _
  after_results
theorem W3_arg4 (c : Dev nD) : W3 m ρ c (Proc.devRef .tc main_arg4) = m ((c : Thread nD τ).loc main_arg4) := by
  have h1 : W3 m ρ c (Proc.devRef .tc main_arg4) = W2 m ρ c (Proc.devRef .tc main_arg4) := by
    show StableHlo.after hostOps1 (W2 m ρ c) (Proc.devRef .tc main_arg4) = _
    after_results
  refine h1.trans ((W2_of_ne m ρ c main_arg4 (by decide)).trans ?_)
  show StableHlo.after hostOps0 (W0 m ρ c) (Proc.devRef .tc main_arg4) = _
  after_results
theorem W3_arg5 (c : Dev nD) : W3 m ρ c (Proc.devRef .tc main_arg5) = m ((c : Thread nD τ).loc main_arg5) := by
  have h1 : W3 m ρ c (Proc.devRef .tc main_arg5) = W2 m ρ c (Proc.devRef .tc main_arg5) := by
    show StableHlo.after hostOps1 (W2 m ρ c) (Proc.devRef .tc main_arg5) = _
    after_results
  refine h1.trans ((W2_of_ne m ρ c main_arg5 (by decide)).trans ?_)
  show StableHlo.after hostOps0 (W0 m ρ c) (Proc.devRef .tc main_arg5) = _
  after_results
theorem W3_arg6 (c : Dev nD) : W3 m ρ c (Proc.devRef .tc main_arg6) = m ((c : Thread nD τ).loc main_arg6) := by
  have h1 : W3 m ρ c (Proc.devRef .tc main_arg6) = W2 m ρ c (Proc.devRef .tc main_arg6) := by
    show StableHlo.after hostOps1 (W2 m ρ c) (Proc.devRef .tc main_arg6) = _
    after_results
  refine h1.trans ((W2_of_ne m ρ c main_arg6 (by decide)).trans ?_)
  show StableHlo.after hostOps0 (W0 m ρ c) (Proc.devRef .tc main_arg6) = _
  after_results

/-! ## The two results -/

/-- The hidden layer and the head of the launched arrays. -/
abbrev hiddenOf (c : Dev nD) : FVec Ideal S100000x64 .f32 :=
  hidden (aggOf (rect (m ((c : Thread nD τ).loc main_arg0))) (srcRow (m ((c : Thread nD τ).loc main_arg1))) (dstRow (m ((c : Thread nD τ).loc main_arg1))))
    (cntOf (dstRow (m ((c : Thread nD τ).loc main_arg1)))) (rect (m ((c : Thread nD τ).loc main_arg0)))
    (m ((c : Thread nD τ).loc main_arg2)) (m ((c : Thread nD τ).loc main_arg3)) (m ((c : Thread nD τ).loc main_arg4))
abbrev headOf (c : Dev nD) : FVec Ideal S100000x1 .f32 :=
  head (aggOf (rect (m ((c : Thread nD τ).loc main_arg0))) (srcRow (m ((c : Thread nD τ).loc main_arg1))) (dstRow (m ((c : Thread nD τ).loc main_arg1))))
    (cntOf (dstRow (m ((c : Thread nD τ).loc main_arg1)))) (rect (m ((c : Thread nD τ).loc main_arg0)))
    (m ((c : Thread nD τ).loc main_arg2)) (m ((c : Thread nD τ).loc main_arg3)) (m ((c : Thread nD τ).loc main_arg4))
    (m ((c : Thread nD τ).loc main_arg5)) (m ((c : Thread nD τ).loc main_arg6))

theorem W4_v20_0 (c : Dev nD) : W4 m ρ c (Proc.devRef .tc main_v20_0) = hiddenOf m c := by
  refine (W4_arr m ρ c 8).trans ((Dense.final8 (V3 m ρ) c).trans ?_)
  show hidden (W3 m ρ c (Proc.devRef .tc main_v14)) (W3 m ρ c (Proc.devRef .tc main_v19)) (W3 m ρ c (Proc.devRef .tc main_v4))
      (W3 m ρ c (Proc.devRef .tc main_arg2)) (W3 m ρ c (Proc.devRef .tc main_arg3)) (W3 m ρ c (Proc.devRef .tc main_arg4)) = _
  rw [W3_v14 m ρ c, W3_v19 m ρ c, W3_v4 m ρ c, W3_arg2 m ρ c, W3_arg3 m ρ c, W3_arg4 m ρ c]

theorem W4_v20_1 (c : Dev nD) : W4 m ρ c (Proc.devRef .tc main_v20_1) = headOf m c := by
  refine (W4_arr m ρ c 9).trans ((Dense.final9 (V3 m ρ) c).trans ?_)
  show head (W3 m ρ c (Proc.devRef .tc main_v14)) (W3 m ρ c (Proc.devRef .tc main_v19)) (W3 m ρ c (Proc.devRef .tc main_v4))
      (W3 m ρ c (Proc.devRef .tc main_arg2)) (W3 m ρ c (Proc.devRef .tc main_arg3)) (W3 m ρ c (Proc.devRef .tc main_arg4))
      (W3 m ρ c (Proc.devRef .tc main_arg5)) (W3 m ρ c (Proc.devRef .tc main_arg6)) = _
  rw [W3_v14 m ρ c, W3_v19 m ρ c, W3_v4 m ρ c, W3_arg2 m ρ c, W3_arg3 m ρ c, W3_arg4 m ρ c, W3_arg5 m ρ c, W3_arg6 m ρ c]

/-- THE KERNEL PROGRAM'S RUN: every weakly fair execution terminates without a fault with the two results at the hidden
    layer and the head of the launched arrays, and the arguments unchanged. -/
theorem run : θ_run defs (onTc (τ := τ) (main (F := Ideal))) ⟨m, fun _ => 0, ρ⟩ (fun r => ∀ c : Dev nD,
      r.2.mem ((c.tc : Thread nD τ).loc main_v20_0) = hiddenOf m c
      ∧ r.2.mem ((c.tc : Thread nD τ).loc main_v20_1) = headOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v20_0 m ρ c), (h c).2.1.trans (W4_v20_1 m ρ c), (h c).2.2⟩)
    (Cert.KernelIdeal.Results.run m ρ)

end Cert.KernelIdeal.Chain

end
-- ==== Proof.RefValue.lean ====
/-
  The reference's two results as the layer of the specification.

  Read one operation at a time, entry `(p, q)` of the reference's hidden result is the rectified sum of: the row `p` of
  the quotient (aggregate over the count raised to at least one, the count spread along the row) against column `q` of
  the transposed first weight matrix; the bias at `q`; and row `p` of the rectified features against column `q` of the
  transposed second weight matrix. That is the specification's hidden layer of the reference's own aggregate, count
  column and rectified features; the head follows in the same way. The aggregate and the count are not opened.
-/
import proofs.«136310_j76149770158552_1_alg».proof.Proof.Gen.ReferenceIdeal.Read
import proofs.«136310_j76149770158552_1_alg».proof.Proof.Spec

noncomputable section

namespace Cert.ReferenceIdeal.RefValue

open Cert.ReferenceIdeal Cert.ReferenceIdeal.Gen Cert.ReferenceIdeal.Read Cert.Sage
open Idealize.ShloMosaic Idealize.ShloMosaic.ValueIdx
open scoped BigOperators

/-- The count as a column: the reference's count vector given a trailing unit axis. -/
def cntCol (x1 : (⟨S2x1600000, .i32⟩ : BufTy).Contents (Elt Ideal)) : FVec Ideal S100000x1 .f32 :=
  broadcastInDim S100000x1 ![0] bcast_S100000_S100000x1_0 (val_main_v18 (F := Ideal) x1)

theorem cntCol_apply (x1 : (⟨S2x1600000, .i32⟩ : BufTy).Contents (Elt Ideal)) (p : Fin 100000) :
    cntCol x1 (ix2 p (0 : Fin 1)) = val_main_v18 (F := Ideal) x1 (ix1 p) := by
  unfold cntCol
  generalize val_main_v18 (F := Ideal) x1 = y
  exact broadcastInDim_apply _ bcast_S100000_S100000x1_0 y (ix2 p (0 : Fin 1)) (ix1 p) (fun a => match a with
    | ⟨0, _⟩ => by show p.val = if (100000 : Nat) = 1 then 0 else p.val; rw [if_neg (by decide)])

/-! ## The composed index functions, at indices given by coordinates -/

theorem lhs25 (p : Fin 100000) (q : Fin 64) (k : Fin 128) : lidx_main_v25 (ix2 p q) k = ix2 p k :=
  funext fun a => Fin.ext (by match a with | ⟨0, _⟩ => rfl | ⟨1, _⟩ => rfl)
theorem rhs25 (p : Fin 100000) (q : Fin 64) (k : Fin 128) : idx_main_v24 (ridx_main_v25 (ix2 p q) k) = ix2 q k :=
  funext fun a => Fin.ext (by match a with | ⟨0, _⟩ => rfl | ⟨1, _⟩ => rfl)
theorem cnt22 (p : Fin 100000) (k : Fin 128) : idx_main_v21 (idx_main_v22 (ix2 p k)) = ix1 p :=
  funext fun a => Fin.ext (by match a with | ⟨0, _⟩ => rfl)
theorem bias27 (p : Fin 100000) (q : Fin 64) : idx_main_v26 (idx_main_v27 (ix2 p q)) = ix1 q :=
  funext fun a => Fin.ext (by match a with | ⟨0, _⟩ => rfl)
theorem lhs30 (p : Fin 100000) (q : Fin 64) (k : Fin 128) : lidx_main_v30 (ix2 p q) k = ix2 p k :=
  funext fun a => Fin.ext (by match a with | ⟨0, _⟩ => rfl | ⟨1, _⟩ => rfl)
theorem rhs30 (p : Fin 100000) (q : Fin 64) (k : Fin 128) : idx_main_v29 (ridx_main_v30 (ix2 p q) k) = ix2 q k :=
  funext fun a => Fin.ext (by match a with | ⟨0, _⟩ => rfl | ⟨1, _⟩ => rfl)
theorem lhs34 (p : Fin 100000) (u : Fin 1) (j : Fin 64) : lidx_main_v34 (ix2 p u) j = ix2 p j :=
  funext fun a => Fin.ext (by match a with | ⟨0, _⟩ => rfl | ⟨1, _⟩ => rfl)
theorem rhs34 (p : Fin 100000) (j : Fin 64) : idx_main_v33 (ridx_main_v34 (ix2 p (0 : Fin 1)) j) = ix2 (0 : Fin 1) j :=
  funext fun a => Fin.ext (by match a with | ⟨0, _⟩ => rfl | ⟨1, _⟩ => rfl)
theorem bias36 (p : Fin 100000) (u : Fin 1) : idx_main_v35 (idx_main_v36 (ix2 p u)) = ix1 (0 : Fin 1) :=
  funext fun a => Fin.ext (by match a with | ⟨0, _⟩ => rfl)

/-- Entry `(p, k)` of the reference's quotient: its aggregate over its count raised to at least one. -/
theorem quot_apply (x0 : (⟨S100000x128, .f32⟩ : BufTy).Contents (Elt Ideal)) (x1 : (⟨S2x1600000, .i32⟩ : BufTy).Contents (Elt Ideal))
    (p : Fin 100000) (k : Fin 128) :
    val_main_v23 (F := Ideal) x0 x1 (ix2 p k)
      = Ideal.div (val_main_v14 (F := Ideal) x0 x1 (ix2 p k)) (max (cntCol x1 (ix2 p (0 : Fin 1))) oneW) := by
  rw [val_main_v23_apply, val_main_v22_apply, val_main_v21_apply, cnt22, val_main_v20_apply, val_main_v19_apply,
    val_main_cst_3_apply, cntCol_apply]
  generalize val_main_v14 (F := Ideal) x0 x1 = A
  generalize val_main_v18 (F := Ideal) x1 = C
  rfl

/-- THE HIDDEN RESULT is the specification's hidden layer of the reference's aggregate, count column and rectified
    features. -/
theorem hidden_eq (x0 : (⟨S100000x128, .f32⟩ : BufTy).Contents (Elt Ideal)) (x1 : (⟨S2x1600000, .i32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) :
    val_main_v32 (F := Ideal) x0 x1 x2 x3 x4
      = hidden (val_main_v14 (F := Ideal) x0 x1) (cntCol x1) (val_main_v4 (F := Ideal) x0) x2 x3 x4 := by
  funext i
  obtain ⟨p, q, rfl⟩ : ∃ (p : Fin 100000) (q : Fin 64), i = ix2 p q := ⟨i 0, i 1, eq_ix2 i⟩
  rw [hidden_apply]
  unfold hiddenAt meanAt
  rw [val_main_v32_apply, val_main_v31_apply, val_main_v28_apply, val_main_v25_apply, val_main_v30_apply,
    val_main_v27_apply, val_main_v26_apply, val_main_call1_v0_apply, val_main_call1_cst_apply]
  have hsum1 : (∑ k : Fin 128, val_main_v23 (F := Ideal) x0 x1 (lidx_main_v25 (ix2 p q) k) * val_main_v24 (F := Ideal) x2 (ridx_main_v25 (ix2 p q) k))
      = ∑ k : Fin 128, Ideal.div (val_main_v14 (F := Ideal) x0 x1 (ix2 p k)) (max (cntCol x1 (ix2 p (0 : Fin 1))) oneW) * x2 (ix2 q k) := by
    refine Finset.sum_congr rfl fun k _ => ?_
    rw [lhs25, val_main_v24_apply, rhs25, quot_apply x0 x1 p k]
  have hsum2 : (∑ k : Fin 128, val_main_v4 (F := Ideal) x0 (lidx_main_v30 (ix2 p q) k) * val_main_v29 (F := Ideal) x4 (ridx_main_v30 (ix2 p q) k))
      = ∑ k : Fin 128, val_main_v4 (F := Ideal) x0 (ix2 p k) * x4 (ix2 q k) := by
    refine Finset.sum_congr rfl fun k _ => ?_
    rw [lhs30, val_main_v29_apply, rhs30]
  rw [hsum1, hsum2, bias27]
  generalize (∑ k : Fin 128, Ideal.div (val_main_v14 (F := Ideal) x0 x1 (ix2 p k)) (max (cntCol x1 (ix2 p (0 : Fin 1))) oneW) * x2 (ix2 q k)) = s1
  generalize (∑ k : Fin 128, val_main_v4 (F := Ideal) x0 (ix2 p k) * x4 (ix2 q k)) = s2
  rfl

/-- THE HEAD'S RESULT is the specification's head of the same. -/
theorem head_eq (x0 : (⟨S100000x128, .f32⟩ : BufTy).Contents (Elt Ideal)) (x1 : (⟨S2x1600000, .i32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 : (⟨S1x64, .f32⟩ : BufTy).Contents (Elt Ideal))
    (x6 : (⟨S1, .f32⟩ : BufTy).Contents (Elt Ideal)) :
    val_main_v37 (F := Ideal) x0 x1 x2 x3 x4 x5 x6
      = head (val_main_v14 (F := Ideal) x0 x1) (cntCol x1) (val_main_v4 (F := Ideal) x0) x2 x3 x4 x5 x6 := by
  funext i
  obtain ⟨p, u, rfl⟩ : ∃ (p : Fin 100000) (u : Fin 1), i = ix2 p u := ⟨i 0, i 1, eq_ix2 i⟩
  have hu : u = 0 := Subsingleton.elim _ _
  subst hu
  rw [head_apply]
  unfold headAt
  rw [val_main_v37_apply, val_main_v34_apply, val_main_v36_apply, val_main_v35_apply]
  have hs : (∑ j : Fin 64, val_main_v32 (F := Ideal) x0 x1 x2 x3 x4 (lidx_main_v34 (ix2 p (0 : Fin 1)) j) * val_main_v33 (F := Ideal) x5 (ridx_main_v34 (ix2 p (0 : Fin 1)) j))
      = ∑ j : Fin 64, hiddenAt (val_main_v14 (F := Ideal) x0 x1) (cntCol x1) (val_main_v4 (F := Ideal) x0) x2 x3 x4 p j * x5 (ix2 (0 : Fin 1) j) := by
    refine Finset.sum_congr rfl fun j _ => ?_
    rw [lhs34, val_main_v33_apply, rhs34, hidden_eq, hidden_apply]
  rw [hs, bias36]
  generalize (∑ j : Fin 64, hiddenAt (val_main_v14 (F := Ideal) x0 x1) (cntCol x1) (val_main_v4 (F := Ideal) x0) x2 x3 x4 p j * x5 (ix2 (0 : Fin 1) j)) = s
  rfl

end Cert.ReferenceIdeal.RefValue

end
-- ==== Proof.Bridge.lean ====
/-
  The two programs' aggregates, count columns and rectified features are the same functions of the launched arrays.

  Both programs print the same host operations for them, over shape names and records that each program's file
  declares for itself with the same contents: the reference's stages, opened to those operations, are the kernel
  program's named chain applied to the rectified input and the two edge rows. With that, the reference's two results
  are the hidden layer and the head the kernel program's run ends with.
-/
import proofs.«136310_j76149770158552_1_alg».proof.Proof.KernelValue
import proofs.«136310_j76149770158552_1_alg».proof.Proof.RefValue

noncomputable section

namespace Cert.Bridge

open Idealize.ShloMosaic Idealize.ShloMosaic.ValueIdx Cert.Sage
open Cert.ReferenceIdeal.Read Cert.ReferenceIdeal.RefValue

/-- The reference's rectified features are the specification's. -/
theorem feat_eq (x : (⟨Cert.ReferenceIdeal.S100000x128, .f32⟩ : BufTy).Contents (Elt Ideal)) :
    val_main_v4 (F := Ideal) x = rect x := by
  funext i
  rw [val_main_v4_apply, val_main_call0_v0_apply, val_main_call0_cst_apply]
  rfl

/-- The reference's aggregate is the kernel program's chain at the rectified input and the two edge rows. -/
theorem agg_eq (x : (⟨Cert.ReferenceIdeal.S100000x128, .f32⟩ : BufTy).Contents (Elt Ideal))
    (e : (⟨Cert.ReferenceIdeal.S2x1600000, .i32⟩ : BufTy).Contents (Elt Ideal)) :
    val_main_v14 (F := Ideal) x e
      = Cert.KernelIdeal.Chain.aggOf (rect x) (Cert.KernelIdeal.Chain.srcRow e) (Cert.KernelIdeal.Chain.dstRow e) := by
  unfold val_main_v14 val_main_v11
  rw [feat_eq]
  generalize rect x = h
  unfold val_main_v12 val_main_cst val_main_v13 val_main_v3 val_main_v2 val_main_v10 val_main_v9 val_main_v8 val_main_v7
    val_main_c_0 val_main_v6 val_main_v5 val_main_c val_main_v1 val_main_v0
  unfold Cert.KernelIdeal.Chain.aggOf Cert.KernelIdeal.Chain.srcRow Cert.KernelIdeal.Chain.dstRow
  rfl

/-- The reference's count column is the kernel program's. -/
theorem cnt_eq (e : (⟨Cert.ReferenceIdeal.S2x1600000, .i32⟩ : BufTy).Contents (Elt Ideal)) :
    cntCol e = Cert.KernelIdeal.Chain.cntOf (Cert.KernelIdeal.Chain.dstRow e) := by
  unfold cntCol val_main_v18 val_main_v16 val_main_cst_2 val_main_v17 val_main_v3 val_main_v2 val_main_v15 val_main_cst_1
  unfold Cert.KernelIdeal.Chain.cntOf Cert.KernelIdeal.Chain.dstRow
  rfl

/-- THE REFERENCE'S HIDDEN RESULT, in the kernel program's terms. -/
theorem hidden_main (x : (⟨Cert.ReferenceIdeal.S100000x128, .f32⟩ : BufTy).Contents (Elt Ideal))
    (e : (⟨Cert.ReferenceIdeal.S2x1600000, .i32⟩ : BufTy).Contents (Elt Ideal))
    (x2 : (⟨Cert.ReferenceIdeal.S64x128, .f32⟩ : BufTy).Contents (Elt Ideal)) (x3 : (⟨Cert.ReferenceIdeal.S64, .f32⟩ : BufTy).Contents (Elt Ideal))
    (x4 : (⟨Cert.ReferenceIdeal.S64x128, .f32⟩ : BufTy).Contents (Elt Ideal)) :
    val_main_v32 (F := Ideal) x e x2 x3 x4
      = hidden (Cert.KernelIdeal.Chain.aggOf (rect x) (Cert.KernelIdeal.Chain.srcRow e) (Cert.KernelIdeal.Chain.dstRow e))
          (Cert.KernelIdeal.Chain.cntOf (Cert.KernelIdeal.Chain.dstRow e)) (rect x) x2 x3 x4 := by
  rw [hidden_eq, agg_eq, cnt_eq, feat_eq]

/-- THE REFERENCE'S HEAD, in the kernel program's terms. -/
theorem head_main (x : (⟨Cert.ReferenceIdeal.S100000x128, .f32⟩ : BufTy).Contents (Elt Ideal))
    (e : (⟨Cert.ReferenceIdeal.S2x1600000, .i32⟩ : BufTy).Contents (Elt Ideal))
    (x2 : (⟨Cert.ReferenceIdeal.S64x128, .f32⟩ : BufTy).Contents (Elt Ideal)) (x3 : (⟨Cert.ReferenceIdeal.S64, .f32⟩ : BufTy).Contents (Elt Ideal))
    (x4 : (⟨Cert.ReferenceIdeal.S64x128, .f32⟩ : BufTy).Contents (Elt Ideal)) (x5 : (⟨Cert.ReferenceIdeal.S1x64, .f32⟩ : BufTy).Contents (Elt Ideal))
    (x6 : (⟨Cert.ReferenceIdeal.S1, .f32⟩ : BufTy).Contents (Elt Ideal)) :
    val_main_v37 (F := Ideal) x e x2 x3 x4 x5 x6
      = head (Cert.KernelIdeal.Chain.aggOf (rect x) (Cert.KernelIdeal.Chain.srcRow e) (Cert.KernelIdeal.Chain.dstRow e))
          (Cert.KernelIdeal.Chain.cntOf (Cert.KernelIdeal.Chain.dstRow e)) (rect x) x2 x3 x4 x5 x6 := by
  rw [head_eq, agg_eq, cnt_eq, feat_eq]

end Cert.Bridge

end
-- ==== Proof.lean ====
/-
  The certificate: the kernel program (a rectifying region, a host gather and two scatter-adds, a dense region) and its
  jnp reference compute, at the exact values, the same two arrays.

  The three frames are the generated ones: each kernel program's launch over its four segments, and the reference's run
  with its results dropped. The idealization rewrote nothing. For the value claim the kernel program's run ends with
  the hidden layer `max (mean · Wlᵀ + bl + h · Wrᵀ) 0` and the head `hidden · Whᵀ + bh` of the aggregate, the count
  column and the rectified input of the launched arrays; the reference's run, read one operation at a time, ends with
  the same two functions of the same three arrays. No law beyond the sums' own terms is used, so finiteness of the
  inputs is never opened.
-/
import proofs.«136310_j76149770158552_1_alg».proof.Defs
import proofs.«136310_j76149770158552_1_alg».proof.Proof.Gen.Kernel
import proofs.«136310_j76149770158552_1_alg».proof.Proof.Gen.Kernel.Skeleton
import proofs.«136310_j76149770158552_1_alg».proof.Proof.Gen.Kernel.Launch
import proofs.«136310_j76149770158552_1_alg».proof.Proof.Gen.Kernel.Points
import proofs.«136310_j76149770158552_1_alg».proof.Proof.Gen.Kernel.Frame
import proofs.«136310_j76149770158552_1_alg».proof.Proof.Gen.KernelIdeal
import proofs.«136310_j76149770158552_1_alg».proof.Proof.Gen.KernelIdeal.Skeleton
import proofs.«136310_j76149770158552_1_alg».proof.Proof.Gen.KernelIdeal.Launch
import proofs.«136310_j76149770158552_1_alg».proof.Proof.Gen.KernelIdeal.Points
import proofs.«136310_j76149770158552_1_alg».proof.Proof.Gen.KernelIdeal.Frame
import proofs.«136310_j76149770158552_1_alg».proof.Proof.Gen.ReferenceIdeal
import proofs.«136310_j76149770158552_1_alg».proof.Proof.Gen.Pre_finite_inputs
import proofs.«136310_j76149770158552_1_alg».proof.Proof.Gen.ReferenceIdeal.Run
import proofs.«136310_j76149770158552_1_alg».proof.Proof.Gen.ReferenceIdeal.Read
import proofs.«136310_j76149770158552_1_alg».proof.Proof.KernelValue
import proofs.«136310_j76149770158552_1_alg».proof.Proof.RefValue
import proofs.«136310_j76149770158552_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the hidden layer and the head of the launched arrays. -/
theorem algebraic : Cert.algebraic_KernelIdeal_ReferenceIdeal := by
  intro m ρ m' ρ' _ hagree
  refine ⟨fun c => Cert.KernelIdeal.Chain.hiddenOf m c, fun c => Cert.KernelIdeal.Chain.headOf m c,
    Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v32_eq _ _ _ _ _).trans ?_
    obtain ⟨a0, a1, a2, a3, a4, -, -⟩ := hagree c
    rw [a0, a1, a2, a3, a4]
    exact Cert.Bridge.hidden_main _ _ _ _ _
  · refine (Cert.ReferenceIdeal.Read.val_main_v37_eq _ _ _ _ _ _ _).trans ?_
    obtain ⟨a0, a1, a2, a3, a4, a5, a6⟩ := hagree c
    rw [a0, a1, a2, a3, a4, a5, a6]
    exact Cert.Bridge.head_main _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
